-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x4096 : Shape := ⟨2, ![32, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S8192x4096 .f32) (main_arg1 : IVec S512x4096 32) (main_arg2 : FVec F S32x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S8192x4096 : Shape := ⟨2, ![8192, 4096]⟩
abbrev S512x4096 : Shape := ⟨2, ![512, 4096]⟩
abbrev S32x4096 : Shape := ⟨2, ![32, 4096]⟩
abbrev S1024x1024 : Shape := ⟨2, ![1024, 1024]⟩
abbrev S128x1024 : Shape := ⟨2, ![128, 1024]⟩
abbrev S8x1024 : Shape := ⟨2, ![8, 1024]⟩
abbrev S1x8x1 : Shape := ⟨3, ![1, 8, 1]⟩
abbrev S32x1024 : Shape := ⟨2, ![32, 1024]⟩
abbrev S32x1x1024 : Shape := ⟨3, ![32, 1, 1024]⟩
abbrev S32x8x1024 : Shape := ⟨3, ![32, 8, 1024]⟩
abbrev S2x128x1024 : Shape := ⟨3, ![2, 128, 1024]⟩
abbrev S2x1024 : Shape := ⟨2, ![2, 1024]⟩
abbrev S2x1x1024 : Shape := ⟨3, ![2, 1, 1024]⟩
abbrev S256x1024 : Shape := ⟨2, ![256, 1024]⟩
abbrev S1024x256 : Shape := ⟨2, ![1024, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v106 : BitVec 1 := Scalar.cmpi .eq arg2 c3_i32
  let v107 : BitVec 32 := Scalar.extui v106
  let c0_i32_41 : BitVec 32 := 0#32
  let v108 : BitVec 1 := Scalar.cmpi .ne v107 c0_i32_41
  v108

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1x8x1_d1_w32 : S1x8x1.Iotas .tc 32 [1]
  inb_S128x1024_S32x1024_0_0 : ∀ a, (![0, 0] : Fin 2 → Nat) a + S32x1024.size a ≤ S128x1024.size a
  h_S32x1024 : 0 < S32x1024.numel
  shapeCasts_S32x1024_S32x1x1024 : S32x1024.ShapeCasts S32x1x1024
  broadcasts_S32x1x1024_S32x8x1024 : S32x1x1024.Broadcasts S32x8x1024
  broadcasts_S1x8x1_S32x8x1024 : S1x8x1.Broadcasts S32x8x1024
  shapeCasts_S32x8x1024_S2x128x1024 : S32x8x1024.ShapeCasts S2x128x1024
  inb_S8x1024_S2x1024_0_0 : ∀ a, (![0, 0] : Fin 2 → Nat) a + S2x1024.size a ≤ S8x1024.size a
  h_S2x1024 : 0 < S2x1024.numel
  shapeCasts_S2x1024_S2x1x1024 : S2x1024.ShapeCasts S2x1x1024
  broadcasts_S2x1x1024_S2x128x1024 : S2x1x1024.Broadcasts S2x128x1024
  shapeCasts_S2x128x1024_S256x1024 : S2x128x1024.ShapeCasts S256x1024
  bitsLt_bf16_f32 : FTy.bits .bf16 < FTy.bits .f32
  inb_S1024x1024_S1024x256_0_0 : ∀ a, (![0, 0] : Fin 2 → Nat) a + S1024x256.size a ≤ S1024x1024.size a
  h_S1024x256 : 0 < S1024x256.numel
  inb_S128x1024_S32x1024_32_0 : ∀ a, (![32, 0] : Fin 2 → Nat) a + S32x1024.size a ≤ S128x1024.size a
  inb_S8x1024_S2x1024_2_0 : ∀ a, (![2, 0] : Fin 2 → Nat) a + S2x1024.size a ≤ S8x1024.size a
  inb_S1024x1024_S1024x256_0_256 : ∀ a, (![0, 256] : Fin 2 → Nat) a + S1024x256.size a ≤ S1024x1024.size a
  inb_S128x1024_S32x1024_64_0 : ∀ a, (![64, 0] : Fin 2 → Nat) a + S32x1024.size a ≤ S128x1024.size a
  inb_S8x1024_S2x1024_4_0 : ∀ a, (![4, 0] : Fin 2 → Nat) a + S2x1024.size a ≤ S8x1024.size a
  inb_S1024x1024_S1024x256_0_512 : ∀ a, (![0, 512] : Fin 2 → Nat) a + S1024x256.size a ≤ S1024x1024.size a
  inb_S128x1024_S32x1024_96_0 : ∀ a, (![96, 0] : Fin 2 → Nat) a + S32x1024.size a ≤ S128x1024.size a
  inb_S8x1024_S2x1024_6_0 : ∀ a, (![6, 0] : Fin 2 → Nat) a + S2x1024.size a ≤ S8x1024.size a
  inb_S1024x1024_S1024x256_0_768 : ∀ a, (![0, 768] : Fin 2 → Nat) a + S1024x256.size a ≤ S1024x1024.size a
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x4096.size a
  hwx0_1 : ∀ i : grid0.Coords, EltTy.bits .i32 = 32 ∨ (Rect.block (s := S512x4096) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x4096 : Shape := ⟨2, ![512, 4096]⟩
abbrev S32x4096 : Shape := ⟨2, ![32, 4096]⟩
abbrev S8 : Shape := ⟨1, ![8]⟩
abbrev S_ : Shape := ⟨0, ![]⟩
abbrev S1x8x1 : Shape := ⟨3, ![1, 8, 1]⟩
abbrev S512x1x4096 : Shape := ⟨3, ![512, 1, 4096]⟩
abbrev S512x8x4096 : Shape := ⟨3, ![512, 8, 4096]⟩
abbrev S4096x4096 : Shape := ⟨2, ![4096, 4096]⟩
abbrev S32x128x4096 : Shape := ⟨3, ![32, 128, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x4096, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8x1, .i32⟩
  | .hbm, ⟨8, _⟩ => ⟨S512x1x4096, .i32⟩
  | .hbm, ⟨9, _⟩ => ⟨S512x8x4096, .i32⟩
  | .hbm, ⟨10, _⟩ => ⟨S512x8x4096, .i32⟩
  | .hbm, ⟨11, _⟩ => ⟨S512x8x4096, .i32⟩
  | .hbm, ⟨12, _⟩ => ⟨S_, .i32⟩
  | .hbm, ⟨13, _⟩ => ⟨S512x8x4096, .i32⟩
  | .hbm, ⟨14, _⟩ => ⟨S512x8x4096, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S32x128x4096, .f32⟩
  | .hbm, ⟨21, _⟩ => ⟨S4096x4096, .f32⟩
  | .hbm, ⟨22, _⟩ => ⟨S4096x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x4096_S512x1x4096_0_2 : S512x4096.BroadcastsInDim S512x1x4096 (![0, 2] : Fin 2 → Fin S512x1x4096.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S_S4096x4096 : S_.BroadcastsInDim S4096x4096 (![] : Fin 0 → Fin S4096x4096.rank)
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Nibble.lean ====
/-
  The 4-bit fields of a packed 32-bit word.

  A word packs eight unsigned 4-bit fields; field `s` (for `s < 8`) is read by shifting the word right by
  `4 * s` bits and keeping the low four bits. The shift amount `4 * s` is at most 28, below the word's width,
  so the logical right shift is the plain one on every unit that performs it.
-/
import Idealize.ShloMosaic.PureOps

namespace Cert.Dequant

open Idealize.ShloMosaic

/-- The shift amount of field `s`: the word `4 * s`. -/
def shiftAmt (s : Fin 8) : BitVec 32 := IntOp.muli 4#32 (BitVec.ofNat 32 s.val)

/-- Every field's shift amount is below the width of the word. -/
theorem shiftAmt_lt : ∀ s : Fin 8, (shiftAmt s).toNat < 32 := by decide

/-- Field `s` of the word `q`: shifted down by `4 * s`, the low four bits kept. -/
def field (q : BitVec 32) (s : Fin 8) : BitVec 32 := IntOp.andi (q >>> shiftAmt s) 15#32

/-- On any unit the logical right shift by a field's amount is the plain shift: the amount is in range. -/
theorem shrui_shiftAmt (u : ArithUnit) (q : BitVec 32) (s : Fin 8) :
    IntOp.shrui u q (shiftAmt s) = q >>> shiftAmt s := by
  unfold IntOp.shrui
  exact if_pos (shiftAmt_lt s)

end Cert.Dequant
-- ==== Proof.Spec.lean ====
/-
  The specification: a matrix product against a dequantized 4-bit weight matrix.

  The weight matrix `W` is `4096 × 4096`. Row `κ`, column `n` is stored as field `κ % 8` of the packed word
  `qw[κ / 8, n]`; read as a signed integer and shifted by the zero point `8`, it is scaled by the group's scale
  `sc[κ / 128, n]` (groups are 128 consecutive rows):
      W[κ, n] = (field (qw[κ / 8, n]) (κ % 8) - 8) · sc[κ / 128, n].
  The result is `out[r, n] = Σ_κ x[r, κ] · W[κ, n]`, a sum of 4096 products of extended reals.

  Addition of extended reals is commutative and associative, so the sum may be regrouped freely: splitting
  `κ = 1024·s + 256·c + ρ` (a K-tile `s`, a 256-row chunk `c` of it, a row `ρ` of the chunk) gives the order in
  which a tiled, chunked accumulation adds the same products. Then `κ / 8 = 128·s + 32·c + ρ / 8`,
  `κ % 8 = ρ % 8` and `κ / 128 = 8·s + 2·c + ρ / 128`.
-/
import Idealize.ShloMosaic.PureOps.Ideal
import Idealize.ShloMosaic.Lib.ValueIdx
import Mathlib.Logic.Equiv.Fin.Basic
import Mathlib.Algebra.BigOperators.Fin
import proofs.«430214_j77910706750105_3_alg».proof.Proof.Nibble

noncomputable section

open scoped BigOperators

namespace Cert.Dequant

open Idealize.ShloMosaic Idealize.ShloMosaic.ValueIdx

/-- The activations `x`: 8192 × 4096. -/
abbrev SX : Shape := ⟨2, ![8192, 4096]⟩
/-- The packed weights: 512 × 4096 words of eight fields each. -/
abbrev SQ : Shape := ⟨2, ![512, 4096]⟩
/-- The group scales: 32 × 4096. -/
abbrev SS : Shape := ⟨2, ![32, 4096]⟩

/-- One dequantized weight: field `s` of the word `q` as an integer, minus the zero point `8` (the float
    whose pattern is `0x41000000`), times the scale. -/
def weight (q : BitVec 32) (s : Fin 8) (scale : EReal) : EReal :=
  ((((field q s).toInt : ℝ) : EReal) - Ideal.ofBits .f32 0x41000000#32) * scale

/-- Entry `[κ, n]` of the dequantized matrix. -/
def wAt (qw : SQ.Idx → BitVec 32) (sc : SS.Idx → EReal) (κ : Fin 4096) (n : Fin 4096) : EReal :=
  weight (qw (ix2 (⟨κ.val / 8, by have := κ.isLt; omega⟩ : Fin 512) n)) ⟨κ.val % 8, by omega⟩
    (sc (ix2 (⟨κ.val / 128, by have := κ.isLt; omega⟩ : Fin 32) n))

/-- THE RESULT: `out[r, n] = Σ_κ x[r, κ] · W[κ, n]`. -/
def G (x : SX.Idx → EReal) (qw : SQ.Idx → BitVec 32) (sc : SS.Idx → EReal) : SX.Idx → EReal :=
  fun i => ∑ κ : Fin 4096, x (ix2 (i 0) κ) * wAt qw sc κ (i 1)

/-- A sum over `Fin (A * B)` is the double sum over the quotient and the remainder by `B`. -/
theorem sum_fin_split {M : Type*} [AddCommMonoid M] {N : ℕ} (A B : ℕ) (h : A * B = N) (f : Fin N → M) :
    ∑ κ, f κ = ∑ a : Fin A, ∑ b : Fin B, f ⟨a.val * B + b.val, by
      subst h
      exact Nat.lt_of_lt_of_le (Nat.add_lt_add_left b.isLt _)
        (by rw [← Nat.succ_mul]; exact Nat.mul_le_mul_right _ a.isLt)⟩ := by
  subst h
  rw [← Equiv.sum_comp (finProdFinEquiv (m := A) (n := B)) f, Fintype.sum_prod_type]
  refine Finset.sum_congr rfl fun a _ => Finset.sum_congr rfl fun b _ => congrArg f (Fin.ext ?_)
  show b.val + B * a.val = a.val * B + b.val
  rw [Nat.mul_comm, Nat.add_comm]

/-- One product of the result's sum, named by tile `s`, chunk `c` and row `ρ`: the activation at column
    `1024·s + 256·c + ρ` times the weight read from word row `128·s + 32·c + ρ / 8`, field `ρ % 8`, scale row
    `8·s + 2·c + ρ / 128`. -/
def term (x : SX.Idx → EReal) (qw : SQ.Idx → BitVec 32) (sc : SS.Idx → EReal) (r : Fin 8192) (n : Fin 4096)
    (s c : Fin 4) (ρ : Fin 256) : EReal :=
  x (ix2 r (⟨s.val * 1024 + (c.val * 256 + ρ.val), by have := s.isLt; have := c.isLt; have := ρ.isLt; omega⟩ : Fin 4096))
    * weight (qw (ix2 (⟨s.val * 128 + (c.val * 32 + ρ.val / 8), by have := s.isLt; have := c.isLt; have := ρ.isLt; omega⟩ : Fin 512) n))
        ⟨ρ.val % 8, by omega⟩
        (sc (ix2 (⟨s.val * 8 + (c.val * 2 + ρ.val / 128), by have := s.isLt; have := c.isLt; have := ρ.isLt; omega⟩ : Fin 32) n))

/-- The result regrouped by tile, chunk and row. -/
theorem G_split (x : SX.Idx → EReal) (qw : SQ.Idx → BitVec 32) (sc : SS.Idx → EReal) (i : SX.Idx) :
    G x qw sc i = ∑ s : Fin 4, ∑ c : Fin 4, ∑ ρ : Fin 256, term x qw sc (i 0) (i 1) s c ρ := by
  unfold G
  rw [sum_fin_split 4 1024 rfl]
  refine Finset.sum_congr rfl fun s _ => ?_
  rw [sum_fin_split 4 256 rfl]
  refine Finset.sum_congr rfl fun c _ => Finset.sum_congr rfl fun ρ _ => ?_
  have hs := s.isLt; have hc := c.isLt; have hρ := ρ.isLt
  unfold term wAt
  have e8 : (s.val * 1024 + (c.val * 256 + ρ.val)) / 8 = s.val * 128 + (c.val * 32 + ρ.val / 8) := by omega
  have em : (s.val * 1024 + (c.val * 256 + ρ.val)) % 8 = ρ.val % 8 := by omega
  have e128 : (s.val * 1024 + (c.val * 256 + ρ.val)) / 128 = s.val * 8 + (c.val * 2 + ρ.val / 128) := by omega
  simp only [e8, em, e128]

end Cert.Dequant

end
-- ==== Proof.Ref.lean ====
/-
  The reference computes the specification.

  The reference unpacks every word into its eight fields along a new middle axis (`[512, 8, 4096]`), merges the
  first two axes (`[4096, 4096]`: row `κ` is field `κ % 8` of word row `κ / 8`), converts to float, subtracts the
  zero point, and multiplies by the scales repeated 128 times along the rows (row `κ` takes scale row `κ / 128`).
  Its result is the matrix product of the activations with that matrix. Read at an index, operation by operation,
  this is the specification's `G`: the two merged-axis reshapes are the divisions and remainders by 8 and by 128,
  and the host's logical right shift by `4·(κ % 8) < 32` is the plain shift.
-/
import proofs.«430214_j77910706750105_3_alg».proof.Proof.Gen.ReferenceIdeal.Read
import proofs.«430214_j77910706750105_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Dequant

/-- Entry `[k, n]` of the matrix the reference multiplies by is the dequantized weight `W[k, n]`. -/
theorem dequantized_apply (x1 : S512x4096.Idx → BitVec 32) (x2 : S32x4096.Idx → EReal) (k n : Fin 4096) :
    val_main_v16 (F := Ideal) x1 x2 (ix2 k n) = wAt x1 x2 k n := by
  have hk := k.isLt; have hn := n.isLt
  -- the word: merged row `k` of the unpacked fields comes from word row `k / 8`
  have eword : idx_main_v4 (idx_main_v5 (idx_main_v10 (ix2 k n))) = ix2 (⟨k.val / 8, by omega⟩ : Fin 512) n :=
    funext fun a => Fin.ext (by
      match a with
      | ⟨0, _⟩ => show (k.val * 4096 + n.val) / 32768 = k.val / 8; omega
      | ⟨1, _⟩ => show (k.val * 4096 + n.val) % 4096 = n.val; omega)
  -- the field: `k % 8`
  have efield : ((idx_main_v3 (idx_main_v6 (idx_main_v10 (ix2 k n)))) 0).val = k.val % 8 := by
    show (k.val * 4096 + n.val) / 4096 % 8 = k.val % 8; omega
  -- the scale: merged row `k` of the repeated scales comes from scale row `k / 128`
  have escale : idx_main_v14 (idx_main_v15 (ix2 k n)) = ix2 (⟨k.val / 128, by omega⟩ : Fin 32) n :=
    funext fun a => Fin.ext (by
      match a with
      | ⟨0, _⟩ => show (k.val * 4096 + n.val) / 524288 = k.val / 128; omega
      | ⟨1, _⟩ => show (k.val * 4096 + n.val) % 4096 = n.val; omega)
  rw [val_main_v16_apply, val_main_v13_apply, val_main_v11_apply, val_main_v10_apply, val_main_v9_apply,
    val_main_v7_apply, val_main_v5_apply, val_main_v4_apply, val_main_v6_apply, val_main_v3_apply,
    val_main_v2_apply, val_main_v1_apply, val_main_c_apply, val_main_v0_apply, val_main_v8_apply,
    val_main_c_0_apply, val_main_v12_apply, val_main_cst_apply, val_main_v15_apply, val_main_v14_apply,
    eword, efield, escale]
  show FloatOps.mulf (FloatOps.subf (FloatOps.sitofp (F := Ideal) .f32
      (IntOp.andi (IntOp.shrui .host (x1 (ix2 (⟨k.val / 8, by omega⟩ : Fin 512) n)) (shiftAmt ⟨k.val % 8, by omega⟩)) 15#32))
      (FloatOps.ofBits (F := Ideal) .f32 0x41000000#32)) (x2 (ix2 (⟨k.val / 128, by omega⟩ : Fin 32) n)) = _
  rw [shrui_shiftAmt]
  rfl

/-- THE REFERENCE'S RESULT is the specification's `G` of its three arguments. -/
theorem result_eq (x0 : S8192x4096.Idx → EReal) (x1 : S512x4096.Idx → BitVec 32) (x2 : S32x4096.Idx → EReal) :
    val_main_v17 (F := Ideal) x0 x1 x2 = G x0 x1 x2 := by
  funext i
  obtain ⟨r, n, rfl⟩ : ∃ (r : Fin 8192) (n : Fin 4096), i = ix2 r n := ⟨i 0, i 1, eq_ix2 i⟩
  rw [val_main_v17_apply]
  show (∑ k : Fin 4096, x0 (lidx_main_v17 (ix2 r n) k) * val_main_v16 (F := Ideal) x1 x2 (ridx_main_v17 (ix2 r n) k))
    = ∑ κ : Fin 4096, x0 (ix2 r κ) * wAt x1 x2 κ n
  refine Finset.sum_congr rfl fun k _ => ?_
  have el : lidx_main_v17 (ix2 r n) k = ix2 r k :=
    funext fun a => by match a with | ⟨0, _⟩ => rfl | ⟨1, _⟩ => rfl
  have er : ridx_main_v17 (ix2 r n) k = ix2 k n :=
    funext fun a => by match a with | ⟨0, _⟩ => rfl | ⟨1, _⟩ => rfl
  rw [el, er, dequantized_apply]

end Cert.ReferenceIdeal.RefValue

end
-- ==== Proof.Chunk.lean ====
/-
  One chunk of the accumulation.

  At a grid point the kernel walks its K-tile in four chunks of 256 rows. For each chunk it reads 32 rows of
  packed words and 2 rows of scales, dequantizes them to a `256 × 1024` block `w`, multiplies the `1024 × 256`
  slice of activations by it, and adds the product to the accumulator:
      acc'[p, q] = acc[p, q] + Σ_ρ xs[p, ρ] · w[ρ, q],
      w[ρ, q] = (field (qw[ρ / 8, q]) (ρ % 8) - 8) · sc[ρ / 128, q].
  The four chunks are the same function of their loads; the program text packages them differently, and they are
  identified here by unfolding. The unpacking goes through three layout changes, each read at an index: a new
  middle axis of the eight fields, the merge `[32, 8, 1024] → [2, 128, 1024]` (row `ρ` of the 256 is field
  `ρ % 8` of word row `ρ / 8`) and the merge `[2, 128, 1024] → [256, 1024]`. Narrowing to bf16 is the identity
  on extended reals, and the matrix unit's product into a zero accumulator is the plain sum.
-/
import proofs.«430214_j77910706750105_3_alg».proof.Proof.Gen.KernelIdeal.Skeleton
import proofs.«430214_j77910706750105_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Chunk

open Cert.KernelIdeal Cert.KernelIdeal.Gen
open Idealize.ShloMosaic Idealize.ShloMosaic.ValueIdx Cert.Dequant

/-! ## The four chunks are one function of their loads -/

section AnyInstance
variable {F : FTy → Type} [FloatOps F]

theorem second_chunk (qw : Vec F S32x1024 .i32) (sc : Vec F S2x1024 .f32) (xs : Vec F S1024x256 .f32)
    (acc : Vec F S1024x1024 .f32) : k0_pay7 (k0_pay6 qw) 15#32 sc xs acc = k0_pay5 qw sc xs acc := rfl

theorem third_chunk (qw : Vec F S32x1024 .i32) (sc : Vec F S2x1024 .f32) (xs : Vec F S1024x256 .f32)
    (acc : Vec F S1024x1024 .f32) : k0_pay1 (k0_pay8 k0_pay4 qw sc) (k0_pay9 xs) acc = k0_pay5 qw sc xs acc := rfl

theorem fourth_chunk (qw : Vec F S32x1024 .i32) (sc : Vec F S2x1024 .f32) (xs : Vec F S1024x256 .f32)
    (acc : Vec F S1024x1024 .f32) : k0_pay2 k0_pay4 qw sc xs acc = k0_pay5 qw sc xs acc := rfl

end AnyInstance

/-! ## The layout changes, read at an index -/

/-- Row `ρ` of the merged `[256, 1024]` block is row `ρ % 128` of group `ρ / 128`. -/
theorem merge_groups {α : Type} (v : S2x128x1024.Idx → α) (ρ : Fin 256) (q : Fin 1024) :
    shapeCast S256x1024 v shapeCasts_S2x128x1024_S256x1024 (ix2 ρ q)
      = v (ix3 (⟨ρ.val / 128, by have := ρ.isLt; omega⟩ : Fin 2) (⟨ρ.val % 128, by omega⟩ : Fin 128) q) := by
  have hρ := ρ.isLt
  refine shapeCast_apply v _ _ _ ?_
  rw [Shape.rowMajor_val_three, Shape.rowMajor_val_two]
  show (ρ.val / 128 * 128 + ρ.val % 128) * 1024 + q.val = ρ.val * 1024 + q.val
  omega

/-- Row `ρ % 128` of group `ρ / 128` of the merged fields is field `ρ % 8` of word row `ρ / 8`. -/
theorem merge_fields {α : Type} (v : S32x8x1024.Idx → α) (ρ : Fin 256) (q : Fin 1024) :
    shapeCast S2x128x1024 v shapeCasts_S32x8x1024_S2x128x1024
        (ix3 (⟨ρ.val / 128, by have := ρ.isLt; omega⟩ : Fin 2) (⟨ρ.val % 128, by omega⟩ : Fin 128) q)
      = v (ix3 (⟨ρ.val / 8, by have := ρ.isLt; omega⟩ : Fin 32) (⟨ρ.val % 8, by omega⟩ : Fin 8) q) := by
  have hρ := ρ.isLt
  refine shapeCast_apply v _ _ _ ?_
  rw [Shape.rowMajor_val_three, Shape.rowMajor_val_three]
  show (ρ.val / 8 * 8 + ρ.val % 8) * 1024 + q.val = (ρ.val / 128 * 128 + ρ.val % 128) * 1024 + q.val
  omega

/-- The scales, given a unit middle axis and repeated along it: every row of group `g` reads scale row `g`. -/
theorem scale_of_group {α : Type} (sc : S2x1024.Idx → α) (g : Fin 2) (r : Fin 128) (q : Fin 1024) :
    broadcastTo S2x128x1024 (shapeCast S2x1x1024 sc shapeCasts_S2x1024_S2x1x1024) broadcasts_S2x1x1024_S2x128x1024 (ix3 g r q)
      = sc (ix2 g q) := by
  refine (broadcastTo_apply _ _ (ix3 g r q) (ix3 g (0 : Fin 1) q) (fun a => ?_)).trans ?_
  · match a with
    | ⟨0, _⟩ => show g.val = if (2 : Nat) = 1 then 0 else g.val; rw [if_neg (by decide)]
    | ⟨1, _⟩ => show 0 = if (1 : Nat) = 1 then 0 else r.val; rw [if_pos rfl]
    | ⟨2, _⟩ => show q.val = if (1024 : Nat) = 1 then 0 else q.val; rw [if_neg (by decide)]
  · refine shapeCast_apply sc _ _ _ ?_
    rw [Shape.rowMajor_val_two, Shape.rowMajor_val_three]
    show g.val * 1024 + q.val = (g.val * 1 + 0) * 1024 + q.val
    omega

/-- The words, given a unit middle axis and repeated along the eight fields: every field of row `a` reads word
    `[a, q]`. -/
theorem word_of_row {α : Type} (qw : S32x1024.Idx → α) (a : Fin 32) (s : Fin 8) (q : Fin 1024) :
    broadcastTo S32x8x1024 (shapeCast S32x1x1024 qw shapeCasts_S32x1024_S32x1x1024) broadcasts_S32x1x1024_S32x8x1024 (ix3 a s q)
      = qw (ix2 a q) := by
  refine (broadcastTo_apply _ _ (ix3 a s q) (ix3 a (0 : Fin 1) q) (fun b => ?_)).trans ?_
  · match b with
    | ⟨0, _⟩ => show a.val = if (32 : Nat) = 1 then 0 else a.val; rw [if_neg (by decide)]
    | ⟨1, _⟩ => show 0 = if (1 : Nat) = 1 then 0 else s.val; rw [if_pos rfl]
    | ⟨2, _⟩ => show q.val = if (1024 : Nat) = 1 then 0 else q.val; rw [if_neg (by decide)]
  · refine shapeCast_apply qw _ _ _ ?_
    rw [Shape.rowMajor_val_two, Shape.rowMajor_val_three]
    show a.val * 1024 + q.val = (a.val * 1 + 0) * 1024 + q.val
    omega

/-- The shift amounts `4 · (0, 1, …, 7)` along the field axis, repeated over rows and columns: field `s` is
    shifted by `4·s`. -/
theorem shift_of_field (a : Fin 32) (s : Fin 8) (q : Fin 1024) :
    broadcastTo S32x8x1024 k0_pay4 broadcasts_S1x8x1_S32x8x1024 (ix3 a s q) = shiftAmt s := by
  refine (broadcastTo_apply _ _ (ix3 a s q) (ix3 (0 : Fin 1) s (0 : Fin 1)) (fun b => ?_)).trans ?_
  · match b with
    | ⟨0, _⟩ => show 0 = if (1 : Nat) = 1 then 0 else a.val; rw [if_pos rfl]
    | ⟨1, _⟩ => show s.val = if (8 : Nat) = 1 then 0 else s.val; rw [if_neg (by decide)]
    | ⟨2, _⟩ => show 0 = if (1 : Nat) = 1 then 0 else q.val; rw [if_pos rfl]
  · show IntOp.muli 4#32 (BitVec.ofNat 32 (0 * 8 + s.val)) = IntOp.muli 4#32 (BitVec.ofNat 32 s.val)
    rw [Nat.zero_mul, Nat.zero_add]

/-! ## The dequantized chunk -/

section AnyInstance
variable {F : FTy → Type} [FloatOps F]

/-- The `256 × 1024` block of weights a chunk multiplies by, from its 32 word rows and 2 scale rows. -/
def dequant (qw : Vec F S32x1024 .i32) (sc : Vec F S2x1024 .f32) : FVec F S256x1024 .f32 :=
  shapeCast S256x1024
    (mulf
      (subf
        (sitofp .f32
          (shapeCast S2x128x1024
            (andi
              (shrui
                (broadcastTo S32x8x1024 (shapeCast S32x1x1024 qw shapeCasts_S32x1024_S32x1x1024) broadcasts_S32x1x1024_S32x8x1024)
                (broadcastTo S32x8x1024 k0_pay4 broadcasts_S1x8x1_S32x8x1024))
              (broadcast S32x8x1024 15#32))
            shapeCasts_S32x8x1024_S2x128x1024))
        (broadcast S2x128x1024 (Scalar.ofBits .f32 0x41000000#32)))
      (broadcastTo S2x128x1024 (shapeCast S2x1x1024 sc shapeCasts_S2x1024_S2x1x1024) broadcasts_S2x1x1024_S2x128x1024))
    shapeCasts_S2x128x1024_S256x1024

/-- A chunk's step: the accumulator plus the product of the activations' slice with the dequantized block. -/
theorem step_eq (qw : Vec F S32x1024 .i32) (sc : Vec F S2x1024 .f32) (xs : Vec F S1024x256 .f32) (acc : Vec F S1024x1024 .f32) :
    k0_pay5 qw sc xs acc
      = addf acc (matmul dot_S1024x256_S256x1024_S1024x1024_1_0_0_1_n_n none (truncf .bf16 xs bitsLt_bf16_f32)
          (truncf .bf16 (dequant qw sc) bitsLt_bf16_f32) (constant S1024x1024 .f32 0x00000000#32)) :=
  shapeCast_self _ _

end AnyInstance

/-- Entry `[ρ, q]` of the dequantized block: field `ρ % 8` of word `[ρ / 8, q]`, less the zero point, times scale
    `[ρ / 128, q]`. -/
theorem dequant_apply (qw : Vec Ideal S32x1024 .i32) (sc : Vec Ideal S2x1024 .f32) (ρ : Fin 256) (q : Fin 1024) :
    dequant (F := Ideal) qw sc (ix2 ρ q)
      = weight (qw (ix2 (⟨ρ.val / 8, by have := ρ.isLt; omega⟩ : Fin 32) q)) ⟨ρ.val % 8, by omega⟩
          (sc (ix2 (⟨ρ.val / 128, by have := ρ.isLt; omega⟩ : Fin 2) q)) := by
  unfold dequant
  rw [merge_groups]
  show (FloatOps.sitofp (F := Ideal) .f32 (shapeCast S2x128x1024 _ shapeCasts_S32x8x1024_S2x128x1024 _) - Ideal.ofBits .f32 0x41000000#32)
      * broadcastTo S2x128x1024 _ broadcasts_S2x1x1024_S2x128x1024 _ = _
  rw [merge_fields, scale_of_group]
  show (FloatOps.sitofp (F := Ideal) .f32 (IntOp.andi (IntOp.shrui .vector (broadcastTo S32x8x1024 _ broadcasts_S32x1x1024_S32x8x1024 _)
      (broadcastTo S32x8x1024 k0_pay4 broadcasts_S1x8x1_S32x8x1024 _)) 15#32) - Ideal.ofBits .f32 0x41000000#32) * _ = _
  rw [word_of_row, shift_of_field, shrui_shiftAmt]
  rfl

/-! ## The step at an index -/

/-- The contraction's operand indices: the left operand is read at `[p, ρ]`, the right at `[ρ, q]`. -/
theorem lhs_axis0 (i : S1024x1024.Idx) (k : dot_S1024x256_S256x1024_S1024x1024_1_0_0_1_n_n.contr.Idx) :
    (dot_S1024x256_S256x1024_S1024x1024_1_0_0_1_n_n.lhsIdx i k 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_axis1 (i : S1024x1024.Idx) (k : dot_S1024x256_S256x1024_S1024x1024_1_0_0_1_n_n.contr.Idx) :
    (dot_S1024x256_S256x1024_S1024x1024_1_0_0_1_n_n.lhsIdx i k 1).val = (k ⟨0, by decide⟩).val :=
  dot_S1024x256_S256x1024_S1024x1024_1_0_0_1_n_n.lhsIdx_val_of_single rfl i k
theorem rhs_axis0 (i : S1024x1024.Idx) (k : dot_S1024x256_S256x1024_S1024x1024_1_0_0_1_n_n.contr.Idx) :
    (dot_S1024x256_S256x1024_S1024x1024_1_0_0_1_n_n.rhsIdx i k 0).val = (k ⟨0, by decide⟩).val :=
  dot_S1024x256_S256x1024_S1024x1024_1_0_0_1_n_n.rhsIdx_val_of_single rfl i k
theorem rhs_axis1 (i : S1024x1024.Idx) (k : dot_S1024x256_S256x1024_S1024x1024_1_0_0_1_n_n.contr.Idx) :
    (dot_S1024x256_S256x1024_S1024x1024_1_0_0_1_n_n.rhsIdx i k 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a `1024 × 256` block with a `256 × 1024` block into the zero accumulator, at `[p, q]`: the sum
    over the 256 shared rows. -/
theorem product_apply (l : FVec Ideal S1024x256 .bf16) (r : FVec Ideal S256x1024 .bf16) (p q : Fin 1024) :
    matmul dot_S1024x256_S256x1024_S1024x1024_1_0_0_1_n_n none l r (constant S1024x1024 .f32 0x00000000#32) (ix2 p q)
      = ∑ ρ : Fin 256, l (ix2 p ρ) * r (ix2 ρ q) := by
  simp only [matmul]
  rw [Ideal.matmul_constant_zero_apply, ← Equiv.sum_comp (contrEquiv1 dot_S1024x256_S256x1024_S1024x1024_1_0_0_1_n_n 256 rfl rfl).symm]
  refine Finset.sum_congr rfl fun ρ _ => ?_
  have hk := contrEquiv1_symm_val dot_S1024x256_S256x1024_S1024x1024_1_0_0_1_n_n 256 rfl rfl ρ
  have el : dot_S1024x256_S256x1024_S1024x1024_1_0_0_1_n_n.lhsIdx (ix2 p q) ((contrEquiv1 dot_S1024x256_S256x1024_S1024x1024_1_0_0_1_n_n 256 rfl rfl).symm ρ) = ix2 p ρ := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 p q) ((contrEquiv1 dot_S1024x256_S256x1024_S1024x1024_1_0_0_1_n_n 256 rfl rfl).symm ρ) = ix2 ρ q := funext fun a => Fin.ext (by
    match a with
    | ⟨0, _⟩ => exact (rhs_axis0 _ _).trans hk
    | ⟨1, _⟩ => exact rhs_axis1 _ _)
  rw [el, er]

/-- A CHUNK'S STEP AT AN INDEX: the accumulator there plus the 256 products of the chunk. -/
theorem step_apply (qw : Vec Ideal S32x1024 .i32) (sc : Vec Ideal S2x1024 .f32) (xs : Vec Ideal S1024x256 .f32)
    (acc : Vec Ideal S1024x1024 .f32) (p q : Fin 1024) :
    k0_pay5 (F := Ideal) qw sc xs acc (ix2 p q)
      = acc (ix2 p q) + ∑ ρ : Fin 256, xs (ix2 p ρ)
          * weight (qw (ix2 (⟨ρ.val / 8, by have := ρ.isLt; omega⟩ : Fin 32) q)) ⟨ρ.val % 8, by omega⟩
              (sc (ix2 (⟨ρ.val / 128, by have := ρ.isLt; omega⟩ : Fin 2) q)) := by
  rw [step_eq]
  show acc (ix2 p q) + matmul dot_S1024x256_S256x1024_S1024x1024_1_0_0_1_n_n none (truncf .bf16 xs bitsLt_bf16_f32)
      (truncf .bf16 (dequant qw sc) bitsLt_bf16_f32) (constant S1024x1024 .f32 0x00000000#32) (ix2 p q) = _
  rw [product_apply]
  refine congrArg (acc (ix2 p q) + ·) (Finset.sum_congr rfl fun ρ _ => ?_)
  show xs (ix2 p ρ) * dequant (F := Ideal) qw sc (ix2 ρ q) = _
  rw [dequant_apply]

end Cert.KernelIdeal.Chunk

end
-- ==== Proof.Pieces.lean ====
/-
  What one grid point's body leaves behind.

  Whatever the control case, the body updates the accumulator by its four chunks in turn: chunk `k` reads word rows
  `32k … 32k + 31` and scale rows `2k, 2k + 1` of the point's blocks and columns `256k … 256k + 255` of the
  activations' block. So the scratch ends at `body x qw sc acc`, four chunk steps applied to what it held: `acc` is
  the zero block where the case resets the scratch first (the K-axis's first point), and what the point before
  left otherwise. At the K-axis's last point the output block is stored from the scratch after the fourth chunk:
  the same value. Every store covers the whole buffer, so the last store alone decides the contents, and each
  load of the scratch reads the store before it.
-/
import proofs.«430214_j77910706750105_3_alg».proof.Proof.Gen.KernelIdeal.Frame
import proofs.«430214_j77910706750105_3_alg».proof.Proof.Chunk
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offset of a load or store of a whole buffer. -/
theorem whole_offset : (![0, 0] : Fin 2 → Nat) = fun _ => 0 := funext fun a => by fin_cases a <;> rfl

/-- The four chunk steps of one grid point, on the point's three input blocks, from the accumulator `acc`. -/
def body (x : Vec F S1024x1024 .f32) (qw : Vec F S128x1024 .i32) (sc : Vec F S8x1024 .f32) (acc : Vec F S1024x1024 .f32) :
    Vec F S1024x1024 .f32 :=
  k0_pay5 (View.ld qw (Rect.unit ![96, 0] S32x1024.size inb_S128x1024_S32x1024_96_0))
      (View.ld sc (Rect.unit ![6, 0] S2x1024.size inb_S8x1024_S2x1024_6_0))
      (View.ld x (Rect.unit ![0, 768] S1024x256.size inb_S1024x1024_S1024x256_0_768))
    (k0_pay5 (View.ld qw (Rect.unit ![64, 0] S32x1024.size inb_S128x1024_S32x1024_64_0))
        (View.ld sc (Rect.unit ![4, 0] S2x1024.size inb_S8x1024_S2x1024_4_0))
        (View.ld x (Rect.unit ![0, 512] S1024x256.size inb_S1024x1024_S1024x256_0_512))
      (k0_pay5 (View.ld qw (Rect.unit ![32, 0] S32x1024.size inb_S128x1024_S32x1024_32_0))
          (View.ld sc (Rect.unit ![2, 0] S2x1024.size inb_S8x1024_S2x1024_2_0))
          (View.ld x (Rect.unit ![0, 256] S1024x256.size inb_S1024x1024_S1024x256_0_256))
        (k0_pay5 (View.ld qw (Rect.unit ![0, 0] S32x1024.size inb_S128x1024_S32x1024_0_0))
            (View.ld sc (Rect.unit ![0, 0] S2x1024.size inb_S8x1024_S2x1024_0_0))
            (View.ld x (Rect.unit ![0, 0] S1024x256.size inb_S1024x1024_S1024x256_0_0))
          acc)))

/-- At the K-axis's first point the scratch is reset to the zero block and then updated: it ends at the body of
    zero. -/
theorem scratch_first (c : Dev nD) (i : grid0.Coords) (arg3 : Memref sig .tc .vmem S1024x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S128x1024 .i32) (x2 : Vec F S8x1024 .f32) :
    sout0_A_0 c i arg3 harg3 arg4 harg4 arg5 harg5 arg6 harg6 arg7 harg7 hc0 hc1 x0 x1 x2 = body x0 x1 x2 k0_pay3 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) whole_offset]
  simp only [View.readAt_eq_ld, harg3.read_unread, harg4.read_unread, harg5.read_unread, harg7.read_unread,
    View.readCov_cons_toLoadRect, View.readCov_unit_zero (S := S1024x1024) _ whole_offset, View.ld_unit_zero (S := S1024x1024) whole_offset,
    Chunk.second_chunk, Chunk.third_chunk, Chunk.fourth_chunk]
  rfl

/-- At a middle point of the K-axis the scratch ends at the body of what the point before left. -/
theorem scratch_middle (c : Dev nD) (i : grid0.Coords) (arg3 : Memref sig .tc .vmem S1024x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S128x1024 .i32) (x2 : Vec F S8x1024 .f32) (xs0 : Vec F S1024x1024 .f32) :
    sout0_B_0 c i arg3 harg3 arg4 harg4 arg5 harg5 arg6 harg6 arg7 harg7 hc0 hc1 x0 x1 x2 xs0 = body x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_cons_unit_zero (S := S1024x1024) whole_offset]
  simp only [View.readAt_eq_ld, harg3.read_unread, harg4.read_unread, harg5.read_unread, harg7.read_unread,
    View.readCov_cons_toLoadRect, View.readCov_unit_zero (S := S1024x1024) _ whole_offset, View.ld_unit_zero (S := S1024x1024) whole_offset,
    Chunk.second_chunk, Chunk.third_chunk, Chunk.fourth_chunk]
  rfl

/-- At the K-axis's last point likewise, -/
theorem scratch_last (c : Dev nD) (i : grid0.Coords) (arg3 : Memref sig .tc .vmem S1024x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S128x1024 .i32) (x2 : Vec F S8x1024 .f32) (xs0 : Vec F S1024x1024 .f32) :
    sout0_C_0 c i arg3 harg3 arg4 harg4 arg5 harg5 arg6 harg6 arg7 harg7 hc0 hc1 x0 x1 x2 xs0 = body x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_cons_unit_zero (S := S1024x1024) whole_offset]
  simp only [View.readAt_eq_ld, harg3.read_unread, harg4.read_unread, harg5.read_unread, harg7.read_unread,
    View.readCov_cons_toLoadRect, View.readCov_unit_zero (S := S1024x1024) _ whole_offset, View.ld_unit_zero (S := S1024x1024) whole_offset,
    Chunk.second_chunk, Chunk.third_chunk, Chunk.fourth_chunk]
  rfl

/-- and the output block is stored from the scratch: the same value. -/
theorem output_last (c : Dev nD) (i : grid0.Coords) (arg3 : Memref sig .tc .vmem S1024x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S128x1024 .i32) (x2 : Vec F S8x1024 .f32) (xs0 : Vec F S1024x1024 .f32) :
    out0_C_3 c i arg3 harg3 arg4 harg4 arg5 harg5 arg6 harg6 arg7 harg7 hc0 hc1 x0 x1 x2 xs0 = body x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) whole_offset]
  simp only [View.readAt_eq_ld, harg3.read_unread, harg4.read_unread, harg5.read_unread, harg7.read_unread,
    View.readCov_cons_toLoadRect, View.readCov_unit_zero (S := S1024x1024) _ whole_offset, View.ld_unit_zero (S := S1024x1024) whole_offset,
    Chunk.second_chunk, Chunk.third_chunk, Chunk.fourth_chunk]
  rfl

end Cert.KernelIdeal.Pieces

end
-- ==== Proof.Body.lean ====
/-
  One grid point's body at an index.

  The body adds to the accumulator, at `[p, q]`, the 1024 products of the point's K-tile: chunk `k` contributes
  `Σ_ρ x[p, 256k + ρ] · w_k[ρ, q]` with `w_k[ρ, q]` read from word row `32k + ρ / 8` (field `ρ % 8`) and scale row
  `2k + ρ / 128` of the point's blocks. Addition of extended reals is associative, so the four chunk sums added
  one after the other are the accumulator plus their total.
-/
import proofs.«430214_j77910706750105_3_alg».proof.Proof.Pieces
import Mathlib.Algebra.BigOperators.Fin

noncomputable section

open scoped BigOperators

namespace Cert.KernelIdeal.Body

open Cert.KernelIdeal Cert.KernelIdeal.Gen Cert.KernelIdeal.Pieces
open Idealize.ShloMosaic Idealize.ShloMosaic.ValueIdx Cert.Dequant

/-- Rows `o … o + 31` of the point's word block. -/
theorem words_slice (qw : Vec Ideal S128x1024 .i32) (o : Nat) (inb : ∀ a, (![o, 0] : Fin 2 → Nat) a + S32x1024.size a ≤ S128x1024.size a)
    (a : Fin 32) (q : Fin 1024) (h : o + a.val < 128) :
    View.ld qw (Rect.unit ![o, 0] S32x1024.size inb) (ix2 a q) = qw (ix2 (⟨o + a.val, h⟩ : Fin 128) q) := by
  show qw _ = qw _
  refine congrArg qw (funext fun b => Fin.ext ?_)
  match b with
  | ⟨0, _⟩ => show o + 1 * a.val = o + a.val; omega
  | ⟨1, _⟩ => show 0 + 1 * q.val = q.val; omega

/-- Rows `o, o + 1` of the point's scale block. -/
theorem scales_slice (sc : Vec Ideal S8x1024 .f32) (o : Nat) (inb : ∀ a, (![o, 0] : Fin 2 → Nat) a + S2x1024.size a ≤ S8x1024.size a)
    (g : Fin 2) (q : Fin 1024) (h : o + g.val < 8) :
    View.ld sc (Rect.unit ![o, 0] S2x1024.size inb) (ix2 g q) = sc (ix2 (⟨o + g.val, h⟩ : Fin 8) q) := by
  show sc _ = sc _
  refine congrArg sc (funext fun b => Fin.ext ?_)
  match b with
  | ⟨0, _⟩ => show o + 1 * g.val = o + g.val; omega
  | ⟨1, _⟩ => show 0 + 1 * q.val = q.val; omega

/-- Columns `o … o + 255` of the point's activation block. -/
theorem activations_slice (x : Vec Ideal S1024x1024 .f32) (o : Nat) (inb : ∀ a, (![0, o] : Fin 2 → Nat) a + S1024x256.size a ≤ S1024x1024.size a)
    (p : Fin 1024) (ρ : Fin 256) (h : o + ρ.val < 1024) :
    View.ld x (Rect.unit ![0, o] S1024x256.size inb) (ix2 p ρ) = x (ix2 p (⟨o + ρ.val, h⟩ : Fin 1024)) := by
  show x _ = x _
  refine congrArg x (funext fun b => Fin.ext ?_)
  match b with
  | ⟨0, _⟩ => show 0 + 1 * p.val = p.val; omega
  | ⟨1, _⟩ => show o + 1 * ρ.val = o + ρ.val; omega

/-- One product of the point's K-tile: chunk `k`, row `ρ`. -/
def product (x : Vec Ideal S1024x1024 .f32) (qw : Vec Ideal S128x1024 .i32) (sc : Vec Ideal S8x1024 .f32) (p q : Fin 1024)
    (k : Fin 4) (ρ : Fin 256) : EReal :=
  x (ix2 p (⟨k.val * 256 + ρ.val, by have := k.isLt; have := ρ.isLt; omega⟩ : Fin 1024))
    * weight (qw (ix2 (⟨k.val * 32 + ρ.val / 8, by have := k.isLt; have := ρ.isLt; omega⟩ : Fin 128) q)) ⟨ρ.val % 8, by omega⟩
        (sc (ix2 (⟨k.val * 2 + ρ.val / 128, by have := k.isLt; have := ρ.isLt; omega⟩ : Fin 8) q))

/-- What the point adds to the accumulator at `[p, q]`: its 1024 products. -/
def addend (x : Vec Ideal S1024x1024 .f32) (qw : Vec Ideal S128x1024 .i32) (sc : Vec Ideal S8x1024 .f32) (p q : Fin 1024) : EReal :=
  ∑ k : Fin 4, ∑ ρ : Fin 256, product x qw sc p q k ρ

/-- One chunk's step on slices of the blocks, at an index: the accumulator plus chunk `k`'s products. -/
theorem chunk_apply (x : Vec Ideal S1024x1024 .f32) (qw : Vec Ideal S128x1024 .i32) (sc : Vec Ideal S8x1024 .f32)
    (acc : Vec Ideal S1024x1024 .f32) (p q : Fin 1024) (k : Fin 4) (oq os ox : Nat)
    (hq : oq = k.val * 32) (hs : os = k.val * 2) (hx : ox = k.val * 256)
    (inbq : ∀ a, (![oq, 0] : Fin 2 → Nat) a + S32x1024.size a ≤ S128x1024.size a)
    (inbs : ∀ a, (![os, 0] : Fin 2 → Nat) a + S2x1024.size a ≤ S8x1024.size a)
    (inbx : ∀ a, (![0, ox] : Fin 2 → Nat) a + S1024x256.size a ≤ S1024x1024.size a) :
    k0_pay5 (F := Ideal) (View.ld qw (Rect.unit ![oq, 0] S32x1024.size inbq)) (View.ld sc (Rect.unit ![os, 0] S2x1024.size inbs))
        (View.ld x (Rect.unit ![0, ox] S1024x256.size inbx)) acc (ix2 p q)
      = acc (ix2 p q) + ∑ ρ : Fin 256, product x qw sc p q k ρ := by
  subst hq hs hx
  have hk := k.isLt
  rw [Chunk.step_apply]
  refine congrArg (acc (ix2 p q) + ·) (Finset.sum_congr rfl fun ρ _ => ?_)
  have hρ := ρ.isLt
  rw [activations_slice x _ inbx p ρ (by omega), words_slice qw _ inbq _ q (by show k.val * 32 + ρ.val / 8 < 128; omega),
    scales_slice sc _ inbs _ q (by show k.val * 2 + ρ.val / 128 < 8; omega)]
  rfl

/-- THE BODY AT AN INDEX: the accumulator there plus the point's addend. -/
theorem body_apply (x : Vec Ideal S1024x1024 .f32) (qw : Vec Ideal S128x1024 .i32) (sc : Vec Ideal S8x1024 .f32)
    (acc : Vec Ideal S1024x1024 .f32) (p q : Fin 1024) :
    body (F := Ideal) x qw sc acc (ix2 p q) = acc (ix2 p q) + addend x qw sc p q := by
  unfold body addend
  rw [chunk_apply x qw sc _ p q 3 96 6 768 rfl rfl rfl, chunk_apply x qw sc _ p q 2 64 4 512 rfl rfl rfl,
    chunk_apply x qw sc _ p q 1 32 2 256 rfl rfl rfl, chunk_apply x qw sc _ p q 0 0 0 0 rfl rfl rfl, Fin.sum_univ_four]
  simp only [add_assoc]

end Cert.KernelIdeal.Body

end
-- ==== Proof.Fold.lean ====
/-
  The accumulation over the K-axis, and the block each run of four points writes back.

  Grid point `t` is `(i, j, k)` with `t = 16·i + 4·j + k`: the K-axis is innermost, so the four points
  `4·(t / 4) … 4·(t / 4) + 3` share the output block `(i, j)` and walk the K-tiles `k = 0, 1, 2, 3`. The first
  resets the scratch to zero and adds its addend; each later one adds its addend to what the point before left.
  So after the run's point `k` the scratch holds the sum of the addends of points `0 … k` of the run, and the
  last point stores that sum, of all four, into the output block.

  In global coordinates, point `(i, j, k)` reads rows `1024·i …` and columns `1024·k …` of the activations, word
  rows `128·k …` and columns `1024·j …` of the packed weights, and scale rows `8·k …`, columns `1024·j …`. Its
  addend at `[p, q]` is therefore K-tile `k`'s share of the specification's sum at `[1024·i + p, 1024·j + q]`,
  and the four addends together are the whole sum.
-/
import proofs.«430214_j77910706750105_3_alg».proof.Proof.Gen.KernelIdeal.Value
import proofs.«430214_j77910706750105_3_alg».proof.Proof.Body

set_option maxRecDepth 16384

noncomputable section

open scoped BigOperators

namespace Cert.KernelIdeal.Fold

open Cert.KernelIdeal Cert.KernelIdeal.Gen Cert.KernelIdeal.Pieces Cert.KernelIdeal.Body
open Idealize.ShloMosaic Idealize.ShloMosaic.TcCoe Idealize.ShloMosaic.ValueIdx Idealize.SL.Sem Cert.Dequant
open Idealize.ShloMosaic.Pipeline (Dat)

variable (m : (ℓ : Loc nD τ sig) → Buf (Elt Ideal) ℓ)

/-- The three input blocks at a grid point, at their literal shapes. -/
abbrev xblk (c : Dev nD) (t : Fin cfg0.N) : Vec Ideal S1024x1024 .f32 := iblk m c 0 t
abbrev qblk (c : Dev nD) (t : Fin cfg0.N) : Vec Ideal S128x1024 .i32 := iblk m c 1 t
abbrev sblk (c : Dev nD) (t : Fin cfg0.N) : Vec Ideal S8x1024 .f32 := iblk m c 2 t

/-! ## One point's step on the scratch -/

/-- At the first point of a run the scratch ends at the body of the zero block, whatever it held. -/
theorem point_first (c : Dev nD) (n : ℕ) (hb : n < cfg0.N) (acc : Vec Ideal S1024x1024 .f32) (h0 : n % 4 = 0) :
    Value.scAt0_0 m c n hb acc = body (xblk m c ⟨n, hb⟩) (qblk m c ⟨n, hb⟩) (sblk m c ⟨n, hb⟩) (k0_pay3 (F := Ideal)) := by
  unfold Value.scAt0_0
  rw [dif_pos h0, dif_neg (by omega)]
  exact scratch_first _ _ _ _ _ _ _ _ _ _ _ _ _ _ _ _ _

/-- At a later point it ends at the body of what the point before left. -/
theorem point_later (c : Dev nD) (n : ℕ) (hb : n < cfg0.N) (acc : Vec Ideal S1024x1024 .f32) (h0 : ¬n % 4 = 0) :
    Value.scAt0_0 m c n hb acc = body (xblk m c ⟨n, hb⟩) (qblk m c ⟨n, hb⟩) (sblk m c ⟨n, hb⟩) acc := by
  unfold Value.scAt0_0
  rw [dif_neg h0]
  by_cases h1 : n % 4 = 3
  · rw [dif_pos h1]; exact scratch_last _ _ _ _ _ _ _ _ _ _ _ _ _ _ _ _ _ _
  · rw [dif_neg h1]; exact scratch_middle _ _ _ _ _ _ _ _ _ _ _ _ _ _ _ _ _ _

/-- The reset value is the zero block. -/
theorem zero_block (i : S1024x1024.Idx) : k0_pay3 (F := Ideal) i = 0 := by
  unfold k0_pay3
  rw [shapeCast_self]
  exact Ideal.ofBits_zero_f32

/-- Point `n`'s addend at an index of the block (zero past the grid, where it is never used). -/
def pointAdd (c : Dev nD) (n : ℕ) (i : S1024x1024.Idx) : EReal :=
  if h : n < cfg0.N then addend (xblk m c ⟨n, h⟩) (qblk m c ⟨n, h⟩) (sblk m c ⟨n, h⟩) (i 0) (i 1) else 0

/-- THE SCRATCH AFTER POINT `t`: the sum of the addends of the run's points up to `t`. -/
theorem scratch_after (c : Dev nD) (t : Fin cfg0.N) (i : S1024x1024.Idx) :
    (outsAt0 m c t.val t.isLt).2 i = 0 + ∑ s ∈ Finset.range (t.val % 4 + 1), pointAdd m c (4 * (t.val / 4) + s) i := by
  rw [Value.soutsAt0_0_eq]
  refine Pipeline.accAt_add_apply _ _ (fun _ => (0 : EReal)) (pointAdd m c) (4 * (t.val / 4)) 3 ?ha ?hg (t.val % 4) (by omega) _ i
  case ha =>
    intro h i
    obtain ⟨p, q, rfl⟩ : ∃ (p q : Fin 1024), i = ix2 p q := ⟨i 0, i 1, eq_ix2 i⟩
    rw [point_first m c _ h _ (by omega), body_apply, zero_block]
    unfold pointAdd
    rw [dif_pos h]
  case hg =>
    intro n h acc i hlo hhi
    obtain ⟨p, q, rfl⟩ : ∃ (p q : Fin 1024), i = ix2 p q := ⟨i 0, i 1, eq_ix2 i⟩
    rw [point_later m c n h acc (by omega), body_apply]
    unfold pointAdd
    rw [dif_pos h]

/-- At a run's last point the output block is stored from the scratch. -/
theorem output_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [output_last, scratch_last]

/-! ## The blocks in global coordinates -/

/-- The index maps, decided over the grid: point `t = 16·i + 4·j + k` stages the activations' block `(i, k)`, the
    words' and the scales' block `(k, j)`, and the output's block `(i, j)`. -/
theorem index_maps : ∀ u : Fin cfg0.N,
    win0_0.index u (0 : Fin 2) = u.val / 16 ∧ win0_0.index u (1 : Fin 2) = u.val % 4
    ∧ win0_1.index u (0 : Fin 2) = u.val % 4 ∧ win0_1.index u (1 : Fin 2) = u.val / 4 % 4
    ∧ win0_2.index u (0 : Fin 2) = u.val % 4 ∧ win0_2.index u (1 : Fin 2) = u.val / 4 % 4
    ∧ win0_3.index u (0 : Fin 2) = u.val / 16 ∧ win0_3.index u (1 : Fin 2) = u.val / 4 % 4 :=
  (by decide +kernel : ∀ u : Fin grid0.N, _)

theorem xblk_apply (c : Dev nD) (u : Fin cfg0.N) (p col : Fin 1024) :
    xblk m c u (ix2 p col)
      = V m c main_arg0 (ix2 (⟨u.val / 16 * 1024 + p.val, by have := lt_of_lt_of_eq u.isLt (show cfg0.N = 128 from N_0); have := p.isLt; omega⟩ : Fin 8192)
          (⟨u.val % 4 * 1024 + col.val, by have := col.isLt; omega⟩ : Fin 4096)) := by
  obtain ⟨e0, e1, -⟩ := index_maps u
  show V m c main_arg0 (((cfg0.win 0).blk u).view.emb (ix2 p col)) = _
  refine congrArg (V m c main_arg0) (funext fun a => Fin.ext ?_)
  match a with
  | ⟨0, _⟩ => show win0_0.index u (0 : Fin 2) * 1024 + 1 * p.val = u.val / 16 * 1024 + p.val; rw [e0]; omega
  | ⟨1, _⟩ => show win0_0.index u (1 : Fin 2) * 1024 + 1 * col.val = u.val % 4 * 1024 + col.val; rw [e1]; omega

theorem qblk_apply (c : Dev nD) (u : Fin cfg0.N) (row : Fin 128) (q : Fin 1024) :
    qblk m c u (ix2 row q)
      = V m c main_arg1 (ix2 (⟨u.val % 4 * 128 + row.val, by have := row.isLt; omega⟩ : Fin 512)
          (⟨u.val / 4 % 4 * 1024 + q.val, by have := q.isLt; omega⟩ : Fin 4096)) := by
  obtain ⟨-, -, e0, e1, -⟩ := index_maps u
  show V m c main_arg1 (((cfg0.win 1).blk u).view.emb (ix2 row q)) = _
  refine congrArg (V m c main_arg1) (funext fun a => Fin.ext ?_)
  match a with
  | ⟨0, _⟩ => show win0_1.index u (0 : Fin 2) * 128 + 1 * row.val = u.val % 4 * 128 + row.val; rw [e0]; omega
  | ⟨1, _⟩ => show win0_1.index u (1 : Fin 2) * 1024 + 1 * q.val = u.val / 4 % 4 * 1024 + q.val; rw [e1]; omega

theorem sblk_apply (c : Dev nD) (u : Fin cfg0.N) (row : Fin 8) (q : Fin 1024) :
    sblk m c u (ix2 row q)
      = V m c main_arg2 (ix2 (⟨u.val % 4 * 8 + row.val, by have := row.isLt; omega⟩ : Fin 32)
          (⟨u.val / 4 % 4 * 1024 + q.val, by have := q.isLt; omega⟩ : Fin 4096)) := by
  obtain ⟨-, -, -, -, e0, e1, -⟩ := index_maps u
  show V m c main_arg2 (((cfg0.win 2).blk u).view.emb (ix2 row q)) = _
  refine congrArg (V m c main_arg2) (funext fun a => Fin.ext ?_)
  match a with
  | ⟨0, _⟩ => show win0_2.index u (0 : Fin 2) * 8 + 1 * row.val = u.val % 4 * 8 + row.val; rw [e0]; omega
  | ⟨1, _⟩ => show win0_2.index u (1 : Fin 2) * 1024 + 1 * q.val = u.val / 4 % 4 * 1024 + q.val; rw [e1]; omega

end Cert.KernelIdeal.Fold

end
-- ==== Proof.Result.lean ====
/-
  The kernel's result array is the specification of its arguments.

  The run of four grid points over output block `(i, j)` stores, at the block's `[p, q]`, the sum of its four
  addends; addend `k` is K-tile `k`'s share of the specification's sum at `[1024·i + p, 1024·j + q]`, so the block
  written back is that block of the specification. The 32 written blocks tile the `8192 × 4096` array (row
  `r`, column `n` lies in block `(r / 1024, n / 1024)`, written back at point `16·(r / 1024) + 4·(n / 1024) + 3`),
  so the array ends holding the specification everywhere.
-/
import proofs.«430214_j77910706750105_3_alg».proof.Proof.Fold

set_option maxRecDepth 16384

noncomputable section

open scoped BigOperators

namespace Cert.KernelIdeal.Result

open Cert.KernelIdeal Cert.KernelIdeal.Gen Cert.KernelIdeal.Body Cert.KernelIdeal.Fold
open Idealize.ShloMosaic Idealize.ShloMosaic.TcCoe Idealize.ShloMosaic.ValueIdx Idealize.SL.Sem Cert.Dequant
open Idealize.ShloMosaic.Pipeline (Dat)

variable (m : (ℓ : Loc nD τ sig) → Buf (Elt Ideal) ℓ) (ρ : Dev nD → PrngReg)

/-- The specification of the three argument arrays as the region finds them. -/
abbrev result (c : Dev nD) : S8192x4096.Idx → EReal :=
  G (V m c main_arg0) (V m c main_arg1) (V m c main_arg2)

/-- Index `[p, q]` of output block `(i, j)` in the array. -/
theorem out_index (t : Fin cfg0.N) (p q : Fin 1024) :
    ((cfg0.win 3).blk t).view.emb (ix2 p q)
      = ix2 (⟨t.val / 16 * 1024 + p.val, by have := lt_of_lt_of_eq t.isLt (show cfg0.N = 128 from N_0); have := p.isLt; omega⟩ : Fin 8192)
          (⟨t.val / 4 % 4 * 1024 + q.val, by have := q.isLt; omega⟩ : Fin 4096) := by
  obtain ⟨-, -, -, -, -, -, e0, e1⟩ := index_maps t
  refine funext fun a => Fin.ext ?_
  match a with
  | ⟨0, _⟩ => show win0_3.index t (0 : Fin 2) * 1024 + 1 * p.val = t.val / 16 * 1024 + p.val; rw [e0]; omega
  | ⟨1, _⟩ => show win0_3.index t (1 : Fin 2) * 1024 + 1 * q.val = t.val / 4 % 4 * 1024 + q.val; rw [e1]; omega

/-- The addend of the run's point `s` is K-tile `s`'s share of the specification's sum. -/
theorem point_share (c : Dev nD) (t : Fin cfg0.N) (s : Fin 4) (p q : Fin 1024) :
    pointAdd m c (4 * (t.val / 4) + s.val) (ix2 p q)
      = ∑ k : Fin 4, ∑ ρ' : Fin 256, term (V m c main_arg0) (V m c main_arg1) (V m c main_arg2)
          (⟨t.val / 16 * 1024 + p.val, by have := lt_of_lt_of_eq t.isLt (show cfg0.N = 128 from N_0); have := p.isLt; omega⟩ : Fin 8192)
          (⟨t.val / 4 % 4 * 1024 + q.val, by have := q.isLt; omega⟩ : Fin 4096) s k ρ' := by
  have hN : t.val < 128 := lt_of_lt_of_eq t.isLt (show cfg0.N = 128 from N_0)
  have hs := s.isLt
  have hu : 4 * (t.val / 4) + s.val < cfg0.N :=
    lt_of_lt_of_eq (show 4 * (t.val / 4) + s.val < 128 by omega) (show (128 : ℕ) = cfg0.N from N_0.symm)
  unfold pointAdd
  rw [dif_pos hu]
  unfold addend
  refine Finset.sum_congr rfl fun k _ => Finset.sum_congr rfl fun ρ' _ => ?_
  unfold product term
  rw [xblk_apply, qblk_apply, sblk_apply]
  have e16 : (4 * (t.val / 4) + s.val) / 16 = t.val / 16 := by omega
  have e4 : (4 * (t.val / 4) + s.val) % 4 = s.val := by omega
  have e44 : (4 * (t.val / 4) + s.val) / 4 % 4 = t.val / 4 % 4 := by omega
  simp only [e16, e4, e44]

/-- WHAT A RUN'S LAST POINT WRITES BACK is its block of the specification. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  rw [Value.flushed3, output_eq_scratch m c t h3]
  funext y
  obtain ⟨p, q, rfl⟩ : ∃ (p q : Fin 1024), y = ix2 p q := ⟨y 0, y 1, eq_ix2 y⟩
  show (outsAt0 m c t.val t.isLt).2 (ix2 p q) = result m c (((cfg0.win 3).blk t).view.emb (ix2 p q))
  rw [scratch_after, zero_add, h3, Finset.sum_range, out_index]
  unfold result
  rw [G_split]
  exact Finset.sum_congr rfl fun s _ => point_share m c t s p q

/-- An index of the array is in point `t`'s output block iff each coordinate is in the block's range. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the array is in the block some run's last point writes back. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  refine ⟨⟨16 * ((i 0).val / 1024) + 4 * ((i 1).val / 1024) + 3, by rw [hN]; omega⟩, ?_, ?_⟩
  · exact (flush0_3 _).mpr (by show (16 * ((i 0).val / 1024) + 4 * ((i 1).val / 1024) + 3) % 4 = 3; omega)
  · rw [mem_block]
    obtain ⟨-, -, -, -, -, -, e0, e1⟩ := index_maps ⟨16 * ((i 0).val / 1024) + 4 * ((i 1).val / 1024) + 3, by rw [hN]; omega⟩
    intro a
    match a with
    | ⟨0, _⟩ =>
      show win0_3.index _ (0 : Fin 2) * 1024 ≤ (i 0).val ∧ (i 0).val < win0_3.index _ (0 : Fin 2) * 1024 + 1024
      rw [e0]
      show (16 * ((i 0).val / 1024) + 4 * ((i 1).val / 1024) + 3) / 16 * 1024 ≤ (i 0).val
        ∧ (i 0).val < (16 * ((i 0).val / 1024) + 4 * ((i 1).val / 1024) + 3) / 16 * 1024 + 1024
      omega
    | ⟨1, _⟩ =>
      show win0_3.index _ (1 : Fin 2) * 1024 ≤ (i 1).val ∧ (i 1).val < win0_3.index _ (1 : Fin 2) * 1024 + 1024
      rw [e1]
      show (16 * ((i 0).val / 1024) + 4 * ((i 1).val / 1024) + 3) / 4 % 4 * 1024 ≤ (i 1).val
        ∧ (i 1).val < (16 * ((i 0).val / 1024) + 4 * ((i 1).val / 1024) + 3) / 4 % 4 * 1024 + 1024
      omega

/-- THE ARRAY after the run: the specification of the argument arrays. -/
theorem final (c : Dev nD) : (dats m 0 c).arrAt 3 cfg0.N = result m c :=
  (dats m 0 c).arrAt_eq_of_cover 3 (result m c) (flushed_eq m c) covered

/-- The frame run re-posted: the result array at the specification of the arguments, the arguments unchanged. -/
theorem run : θ_run defs (onTc (τ := τ) (main (F := Ideal))) ⟨m, fun _ => 0, ρ⟩ fun r => ∀ c : Dev nD,
      r.2.mem ((c : Thread nD τ).loc main_v0)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  A 4-bit-quantized matrix product, tiled and accumulated, against the plain one.

  Both programs compute `out[r, n] = Σ_κ x[r, κ] · W[κ, n]` over the extended reals, where
  `W[κ, n] = (field (κ % 8) of qw[κ / 8, n] − 8) · sc[κ / 128, n]` is the dequantized weight matrix (`Spec.lean`).
  The reference unpacks all of `W` and multiplies once (`Ref.lean`). The kernel walks a grid `(i, j, k)`: for each
  output block `(i, j)` it zeroes an accumulator at `k = 0`, adds at every `k` the products of K-tile `k` in four
  chunks of 256 rows each (`Chunk.lean`, `Pieces.lean`, `Body.lean`), and stores the accumulator into the output
  block at `k = 3` (`Fold.lean`); the 32 blocks tile the result (`Result.lean`). The two sides differ only in the
  grouping of the 4096-term sum and in a narrowing to bf16 that is the identity on extended reals; since
  addition of extended reals is associative and commutative, no finiteness of the inputs is used. The packed
  words may be any integers: a field's shift amount `4·(κ % 8)` is below 32 on both sides.
-/
import proofs.«430214_j77910706750105_3_alg».proof.Defs
import proofs.«430214_j77910706750105_3_alg».proof.Proof.Gen.Kernel
import proofs.«430214_j77910706750105_3_alg».proof.Proof.Gen.Kernel.Skeleton
import proofs.«430214_j77910706750105_3_alg».proof.Proof.Gen.Kernel.Launch
import proofs.«430214_j77910706750105_3_alg».proof.Proof.Gen.Kernel.Points
import proofs.«430214_j77910706750105_3_alg».proof.Proof.Gen.Kernel.Frame
import proofs.«430214_j77910706750105_3_alg».proof.Proof.Gen.KernelIdeal
import proofs.«430214_j77910706750105_3_alg».proof.Proof.Gen.KernelIdeal.Skeleton
import proofs.«430214_j77910706750105_3_alg».proof.Proof.Gen.KernelIdeal.Launch
import proofs.«430214_j77910706750105_3_alg».proof.Proof.Gen.KernelIdeal.Points
import proofs.«430214_j77910706750105_3_alg».proof.Proof.Gen.KernelIdeal.Frame
import proofs.«430214_j77910706750105_3_alg».proof.Proof.Gen.ReferenceIdeal
import proofs.«430214_j77910706750105_3_alg».proof.Proof.Gen.Pre_finite_inputs
import proofs.«430214_j77910706750105_3_alg».proof.Proof.Gen.KernelIdeal.Value
import proofs.«430214_j77910706750105_3_alg».proof.Proof.Gen.ReferenceIdeal.Run
import proofs.«430214_j77910706750105_3_alg».proof.Proof.Gen.ReferenceIdeal.Read
import proofs.«430214_j77910706750105_3_alg».proof.Proof.Ref
import proofs.«430214_j77910706750105_3_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten in reading the kernel over the extended reals. -/
theorem preserves : Cert.preserves_Kernel_KernelIdeal := trivial

/-- From arguments that agree, the kernel's result array and the reference's both end at the specification of
    the arguments: the same array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
